-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096 : Shape := ⟨2, ![4, 4096]⟩
abbrev S1024x8192 : Shape := ⟨2, ![1024, 8192]⟩
abbrev S1024 : Shape := ⟨1, ![1024]⟩
abbrev S_ : Shape := ⟨0, ![]⟩

class Facts : Prop where
  bcast_S_S4x4096 : S_.BroadcastsInDim S4x4096 (![] : Fin 0 → Fin S4x4096.rank)
  reducesTo_S4x4096_S_d0_1 : S4x4096.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4x4096 .f32) (main_arg1 : FVec F S1024x8192 .f32) (main_arg2 : FVec F S1024 .f32) : IVec S_ 1 :=
  let main_v0 : FVec F S4x4096 .f32 := Host.absf main_arg0
  let main_cst : FVec F S_ .f32 := constant S_ .f32 0x7F800000#32
  let main_v1 : FVec F S4x4096 .f32 := broadcastInDim S4x4096 ![] bcast_S_S4x4096 main_cst
  let main_v2 : IVec S4x4096 1 := cmpf .olt main_v0 main_v1
  let main_c : IVec S_ 1 := constantI S_ 1 1#1
  let main_v3 : IVec S_ 1 := (fun x v => Host.reduce IntOp.andi x v reducesTo_S4x4096_S_d0_1 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S4x4096 : Shape := ⟨2, ![4, 4096]⟩
abbrev S1024x8192 : Shape := ⟨2, ![1024, 8192]⟩
abbrev S1024 : Shape := ⟨1, ![1024]⟩
abbrev S4x4096x1024 : Shape := ⟨3, ![4, 4096, 1024]⟩
abbrev S1024x1024 : Shape := ⟨2, ![1024, 1024]⟩
abbrev S1x1024x1024 : Shape := ⟨3, ![1, 1024, 1024]⟩
abbrev S1x1024 : Shape := ⟨2, ![1, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4x4096, .f32⟩
  | .hbm, ⟨1, _⟩ => ⟨S1024x8192, .f32⟩
  | .hbm, ⟨2, _⟩ => ⟨S1024, .f32⟩
  | .hbm, ⟨3, _⟩ => ⟨S4x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024, .f32⟩
  | .local _ .vmem, ⟨3, _⟩ => ⟨S1x1024x1024, .f32⟩
  | .local _ .vmem, ⟨4, _⟩ => ⟨S1x1024x1024, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  transposes_S1024x1024_p1_0_S1024x1024 : S1024x1024.Transposes [1, 0] S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S1024x1024_S1x1024x1024 : S1024x1024.ShapeCasts S1x1024x1024
  inb_S1x1024x1024_S1x1024x1024_0_0_0 : ∀ a, (![0, 0, 0] : Fin 3 → Nat) a + S1x1024x1024.size a ≤ S1x1024x1024.size a
  h_S1x1024x1024 : 0 < S1x1024x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x8192.size a
  hwx0_0 : ∀ i : grid0.Coords, EltTy.bits .f32 = 32 ∨ (Rect.block (s := S1024x8192) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S4x4096x1024.size a
  hwx0_2 : ∀ i : grid0.Coords, EltTy.bits .f32 = 32 ∨ (Rect.block (s := S4x4096x1024) S1x1024x1024.size (cc0_transform_2 i) (hinb0_2 i)).WholeWords (EltTy.packing .f32)

variable [Facts₀]

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096 : Shape := ⟨2, ![4, 4096]⟩
abbrev S1024x8192 : Shape := ⟨2, ![1024, 8192]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1x4096x1024 : Shape := ⟨3, ![1, 4096, 1024]⟩
abbrev S4x4096x1024 : Shape := ⟨3, ![4, 4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S1024x8192, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S1x4096x1024, .f32⟩
  | .hbm, ⟨9, _⟩ => ⟨S4x4096x1024, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  slices_S1024x8192_S1024x4096_0_0 : S1024x8192.Slices ![0, 0] S1024x4096
  transposes_S1024x4096_S4096x1024_1_0 : S1024x4096.Transposes [1, 0] S4096x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S4096x1024_S1x4096x1024_1_2 : S4096x1024.BroadcastsInDim S1x4096x1024 (![1, 2] : Fin 2 → Fin S1x4096x1024.rank)
  bcast_S1x4096x1024_S4x4096x1024_0_1_2 : S1x4096x1024.BroadcastsInDim S4x4096x1024 (![0, 1, 2] : Fin 3 → Fin S4x4096x1024.rank)

variable [Facts₀]

class Facts : Prop extends Facts₀ where

variable [Facts]
-- ==== Proof.PosEmbed.lean ====
/-
  The positional-embedding table as ONE function of the weight matrix and the bias.

  A linear layer with weight `W : [1024, 8192]` (features × positions) and bias `b : [1024]`, applied to the
  one-hot encoding of the positions `0 … 4095`, picks out column `s` of `W` for position `s`: entry
  `(batch, s, d)` of the result is `W[d, s] + b[d]`. Only the first 4096 of the 8192 columns are ever read,
  and every batch row holds the same table. Nothing here depends on what a float is: the one arithmetic
  operation is a single addition, with the weight entry on the left and the bias entry on the right.
-/
import Idealize.ShloMosaic.Lib.ValueIdx
import Idealize.ShloMosaic.PureOps

noncomputable section

namespace Cert.PosEmbed

open Idealize.ShloMosaic Idealize.ShloMosaic.ValueIdx

variable {F : FTy → Type} [FloatOps F]

/-- Feature `d` of an output index `(batch, s, d)`: a row of the weight matrix and an entry of the bias. -/
abbrev feature (i : (⟨3, ![4, 4096, 1024]⟩ : Shape).Idx) : Fin 1024 := ⟨(i 2).val, (i 2).isLt⟩

/-- Position `s` of an output index `(batch, s, d)`, as a column of the 8192-column weight matrix
    (`s < 4096 ≤ 8192`). -/
abbrev position (i : (⟨3, ![4, 4096, 1024]⟩ : Shape).Idx) : Fin 8192 :=
  ⟨(i 1).val, by have h : (i 1).val < 4096 := (i 1).isLt; omega⟩

/-- The table: entry `(batch, s, d)` is `W[d, s] + b[d]`, whatever the batch row. -/
def table (W : (⟨2, ![1024, 8192]⟩ : Shape).Idx → Elt F .f32) (b : (⟨1, ![1024]⟩ : Shape).Idx → Elt F .f32) :
    (⟨3, ![4, 4096, 1024]⟩ : Shape).Idx → Elt F .f32 :=
  fun i => FloatOps.addf (W (ix2 (feature i) (position i))) (b (ix1 (feature i)))

theorem table_apply (W : (⟨2, ![1024, 8192]⟩ : Shape).Idx → Elt F .f32) (b : (⟨1, ![1024]⟩ : Shape).Idx → Elt F .f32)
    (i : (⟨3, ![4, 4096, 1024]⟩ : Shape).Idx) :
    table W b i = FloatOps.addf (W (ix2 (feature i) (position i))) (b (ix1 (feature i))) := rfl

end Cert.PosEmbed

end
-- ==== Proof.RefTable.lean ====
/-
  The reference computes the positional-embedding table.

  The reference slices the first 4096 columns off the weight matrix, transposes the slice to
  `[4096, 1024]`, adds the bias broadcast along the rows, and repeats the result for each of the four batch
  rows. Reading these seven operations back at an output index `(batch, s, d)`: the two batch broadcasts drop
  the batch coordinate, the sum reads both operands at `(s, d)`, the transpose turns `(s, d)` into `(d, s)`,
  the slice starts at column 0 so `(d, s)` stays `(d, s)`, and the two bias broadcasts keep only `d`. So the
  entry is `W[d, s] + b[d]`.
-/
import proofs.«164614_j4483945857469_1_alg».proof.Proof.Gen.ReferenceIdeal.Read
import proofs.«164614_j4483945857469_1_alg».proof.Proof.PosEmbed

noncomputable section

namespace Cert.ReferenceIdeal.Table

open Cert.ReferenceIdeal Cert.ReferenceIdeal.Read Idealize.ShloMosaic Idealize.ShloMosaic.ValueIdx

variable {F : FTy → Type} [FloatOps F]

/-- Through batch broadcasts, sum, transpose and slice, output index `(batch, s, d)` reads the weight matrix at
    `(d, s)`. -/
theorem weight_index (i : S4x4096x1024.Idx) :
    idx_main_v0 (idx_main_v1 (idx_main_v5 (idx_main_v6 i))) = ix2 (Cert.PosEmbed.feature i) (Cert.PosEmbed.position i) := by
  funext a; apply Fin.ext
  match a with
  | ⟨0, _⟩ => rfl
  | ⟨1, _⟩ => rfl

/-- Through batch broadcasts, sum and the two bias broadcasts, output index `(batch, s, d)` reads the bias at `d`. -/
theorem bias_index (i : S4x4096x1024.Idx) :
    idx_main_v2 (idx_main_v3 (idx_main_v5 (idx_main_v6 i))) = ix1 (Cert.PosEmbed.feature i) := by
  funext a; apply Fin.ext
  match a with
  | ⟨0, _⟩ => rfl

/-- The reference's last stage, as a function of the weight matrix and the bias, is the table. -/
theorem result_eq (W : (⟨S1024x8192, .f32⟩ : BufTy).Contents (Elt F)) (b : (⟨S1024, .f32⟩ : BufTy).Contents (Elt F)) :
    val_main_v6 (F := F) W b = Cert.PosEmbed.table W b := by
  funext i
  rw [val_main_v6_apply, val_main_v5_apply, val_main_v4_apply, val_main_v1_apply, val_main_v0_apply,
    val_main_v3_apply, val_main_v2_apply, weight_index, bias_index]
  rfl

end Cert.ReferenceIdeal.Table

end
-- ==== Proof.KernelTable.lean ====
/-
  The kernel's result array is the positional-embedding table.

  The kernel walks a 4 × 4 grid: the outer coordinate `si` names a tile of 1024 positions, the inner one `bi`
  a batch row. At a grid point it loads the `[1024, 1024]` block of the weight matrix at block column `si`
  (features × the tile's positions) and the whole bias, transposes the block, adds the bias along the
  feature axis, and stores the sum as the `[1, 1024, 1024]` block `(bi, si, 0)` of the result. So entry
  `(0, r, d)` of the stored block is the weight block's `(d, r)` plus bias `d`; position `r` of tile `si` is
  position `si · 1024 + r` of the array, which is also column `si · 1024 + r` of the weight matrix, and the
  feature coordinate is not tiled at all. Hence every stored block is the restriction of the one table
  `W[d, s] + b[d]`, and since the sixteen blocks `(bi, si, 0)` tile the `[4, 4096, 1024]` array, the array
  ends holding the table.
-/
import proofs.«164614_j4483945857469_1_alg».proof.Proof.Gen.KernelIdeal.Value
import proofs.«164614_j4483945857469_1_alg».proof.Proof.PosEmbed

noncomputable section

namespace Cert.KernelIdeal.Table

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

/-! ## One grid point: the block the body leaves -/

theorem zero_offsets2 : (![0, 0] : Fin 2 → Nat) = fun _ => 0 := funext fun a => by fin_cases a <;> rfl
theorem zero_offsets1 : (![0] : Fin 1 → Nat) = fun _ => 0 := funext fun a => by fin_cases a; rfl

/-- From a weight block `x0` and the bias `x1`, the body leaves at `(0, r, d)` the sum `x0[d, r] + x1[d]`: the
    loads read the whole staging buffers, and the one store's payload re-lays them (transpose, broadcast along
    the rows, a leading unit axis) around a single addition. -/
theorem body_block (x0 : Vec F S1024x1024 .f32) (x1 : Vec F S1024 .f32) (y : S1x1024x1024.Idx) :
    out0_2 x0 x1 y = FloatOps.addf (x0 (Value.ix2_0 y)) (x1 (Value.ix2_1 y)) := by
  unfold out0_2
  rw [Value.canon2_eq]
  simp only [View.ld_unit_zero (S := S1024x1024) zero_offsets2, View.ld_unit_zero (S := S1024) zero_offsets1]

/-! ## The index maps over the grid -/

/-- The printed index maps, decided over the sixteen grid points: the weight window sits at block row 0 and at
    the block column that is the output's position tile; the bias window and the output's feature axis are not
    tiled; the output's batch and position-tile block indices range over `0 … 3`. -/
theorem index_maps : ∀ t : Fin cfg0.N, win0_0.index t (0 : Fin 2) = 0
    ∧ win0_0.index t (1 : Fin 2) = win0_2.index t (1 : Fin 3)
    ∧ win0_1.index t (0 : Fin 1) = 0
    ∧ win0_2.index t (2 : Fin 3) = 0
    ∧ win0_2.index t (0 : Fin 3) ≤ 3
    ∧ win0_2.index t (1 : Fin 3) ≤ 3 :=
  (by decide +kernel : ∀ t : Fin grid0.N, _)

/-- Every pair (batch row, position tile) is some grid point's output block. -/
theorem every_block : ∀ (bi : Fin 4) (si : Fin 4), ∃ t : Fin cfg0.N, win0_2.index t = ![bi.val, si.val, 0] :=
  (by decide +kernel : ∀ (bi : Fin 4) (si : Fin 4), ∃ t : Fin grid0.N, win0_2.index t = ![bi.val, si.val, 0])

/-! ## What a point writes back is its block of the table -/

/-- Grid point `t` writes back block `t` of the table of the weight matrix and the bias as the region finds them. -/
theorem flushed_eq (c : Dev nD) (t : Fin cfg0.N) :
    (dats m 0 c).flushed 2 t
      = ((cfg0.win 2).blk t).view.read (Elt F) (Cert.PosEmbed.table (V m c main_arg1) (V m c main_arg2)) := by
  rw [Value.flushed2]
  funext y
  show out0_2 (iblk m c 0 t) (iblk m c 1 t) y
    = Cert.PosEmbed.table (V m c main_arg1) (V m c main_arg2) (((cfg0.win 2).blk t).view.emb y)
  refine (body_block (iblk m c 0 t) (iblk m c 1 t) y).trans ?_
  rw [Cert.PosEmbed.table_apply]
  obtain ⟨w_row, w_col, b_blk, o_feat, -, -⟩ := index_maps t
  have hy1 : (y 1).val < 1024 := (y 1).isLt
  have hy2 : (y 2).val < 1024 := (y 2).isLt
  show FloatOps.addf (V m c main_arg1 (((cfg0.win 0).blk t).view.emb (Value.ix2_0 y)))
      (V m c main_arg2 (((cfg0.win 1).blk t).view.emb (Value.ix2_1 y)))
    = FloatOps.addf (V m c main_arg1 (ix2 (Cert.PosEmbed.feature (((cfg0.win 2).blk t).view.emb y))
        (Cert.PosEmbed.position (((cfg0.win 2).blk t).view.emb y))))
      (V m c main_arg2 (ix1 (Cert.PosEmbed.feature (((cfg0.win 2).blk t).view.emb y))))
  -- the weight entry: row = feature (neither side tiled on it), column = the tile's position
  have hW : ((cfg0.win 0).blk t).view.emb (Value.ix2_0 y)
      = ix2 (Cert.PosEmbed.feature (((cfg0.win 2).blk t).view.emb y))
          (Cert.PosEmbed.position (((cfg0.win 2).blk t).view.emb y)) := by
    funext a; apply Fin.ext
    match a with
    | ⟨0, _⟩ =>
      show win0_0.index t (0 : Fin 2) * 1024 + 1 * (y 2).val = win0_2.index t (2 : Fin 3) * 1024 + 1 * (y 2).val
      omega
    | ⟨1, _⟩ =>
      show win0_0.index t (1 : Fin 2) * 1024 + 1 * (y 1).val = win0_2.index t (1 : Fin 3) * 1024 + 1 * (y 1).val
      omega
  -- the bias entry: the feature
  have hb : ((cfg0.win 1).blk t).view.emb (Value.ix2_1 y)
      = ix1 (Cert.PosEmbed.feature (((cfg0.win 2).blk t).view.emb y)) := by
    funext a; apply Fin.ext
    match a with
    | ⟨0, _⟩ =>
      show win0_1.index t (0 : Fin 1) * 1024 + 1 * (y 2).val = win0_2.index t (2 : Fin 3) * 1024 + 1 * (y 2).val
      omega
  rw [hW, hb]

/-! ## The blocks tile the array -/

/-- An index of the array is in point `t`'s block iff each coordinate is in the block's range on its axis. -/
theorem mem_block (t : Fin cfg0.N) (i : S4x4096x1024.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v0).slice (win0_2.rect t)).set ↔ _
  rw [View.set_slice_whole, Rect.mem_set_unit]
  exact Iff.rfl

/-- Every index `(batch, s, d)` lies in the block of the point whose output block is `(batch, s / 1024, 0)`. -/
theorem covered (i : S4x4096x1024.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 1024 := (i 2).isLt
  obtain ⟨t, ht⟩ := every_block ⟨(i 0).val, hi0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_block]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1024 ≤ (i 1).val ∧ (i 1).val < win0_2.index t (1 : Fin 3) * 1024 + 1024
    omega
  | ⟨2, _⟩ =>
    show win0_2.index t (2 : Fin 3) * 1024 ≤ (i 2).val ∧ (i 2).val < win0_2.index t (2 : Fin 3) * 1024 + 1024
    omega

/-! ## The array after the run, and the run -/

/-- After the last grid point the result array holds the table. -/
theorem final (c : Dev nD) :
    (dats m 0 c).arrAt 2 cfg0.N = Cert.PosEmbed.table (V m c main_arg1) (V m c main_arg2) :=
  (dats m 0 c).arrAt_eq_of_cover 2 (Cert.PosEmbed.table (V m c main_arg1) (V m c main_arg2))
    (fun t _ => flushed_eq m c t) covered

/-- Every weakly fair execution of the kernel program terminates with the result array at the table of the
    weight matrix and the bias as launched, the three arguments unchanged. -/
theorem run : θ_run defs (onTc (τ := τ) (main (F := F))) ⟨m, fun _ => 0, ρ⟩ fun r => ∀ c : Dev nD,
      r.2.mem ((c : Thread nD τ).loc main_v0)
        = Cert.PosEmbed.table (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Table

end
-- ==== Proof.lean ====
/-
  A positional embedding: a linear layer `W : [1024, 8192]`, `b : [1024]` applied to the one-hot encodings of the
  positions `0 … 4095`, the same for each of four batch rows. Both programs compute the table
  `out[batch, s, d] = W[d, s] + b[d]` (Proof/PosEmbed.lean): the kernel block by block over a 4 × 4 grid of
  (position tile, batch row), each block a transposed `[1024, 1024]` tile of `W` plus the bias
  (Proof/KernelTable.lean); the reference by slicing the first 4096 columns, transposing, adding the bias and
  repeating the result over the batch (Proof/RefTable.lean). The single addition has the weight entry on the
  left and the bias entry on the right in both, so the two results are the same term entry by entry and no
  property of the inputs is used: the finiteness precondition is never opened.

  The three frames: the kernel program's (at the word level and at the extended reals) is its pipeline's run
  with the arguments read back; the reference's is its run with the result dropped. The idealized kernel is the
  kernel's own text read at the extended reals (no operation was rewritten), so there is nothing to preserve.
-/
import proofs.«164614_j4483945857469_1_alg».proof.Defs
import proofs.«164614_j4483945857469_1_alg».proof.Proof.Gen.Kernel
import proofs.«164614_j4483945857469_1_alg».proof.Proof.Gen.Kernel.Skeleton
import proofs.«164614_j4483945857469_1_alg».proof.Proof.Gen.Kernel.Launch
import proofs.«164614_j4483945857469_1_alg».proof.Proof.Gen.Kernel.Points
import proofs.«164614_j4483945857469_1_alg».proof.Proof.Gen.Kernel.Frame
import proofs.«164614_j4483945857469_1_alg».proof.Proof.Gen.KernelIdeal
import proofs.«164614_j4483945857469_1_alg».proof.Proof.Gen.KernelIdeal.Skeleton
import proofs.«164614_j4483945857469_1_alg».proof.Proof.Gen.KernelIdeal.Launch
import proofs.«164614_j4483945857469_1_alg».proof.Proof.Gen.KernelIdeal.Points
import proofs.«164614_j4483945857469_1_alg».proof.Proof.Gen.KernelIdeal.Frame
import proofs.«164614_j4483945857469_1_alg».proof.Proof.Gen.ReferenceIdeal
import proofs.«164614_j4483945857469_1_alg».proof.Proof.Gen.Pre_finite_inputs
import proofs.«164614_j4483945857469_1_alg».proof.Proof.Gen.KernelIdeal.Value
import proofs.«164614_j4483945857469_1_alg».proof.Proof.Gen.ReferenceIdeal.Run
import proofs.«164614_j4483945857469_1_alg».proof.Proof.Gen.ReferenceIdeal.Read
import proofs.«164614_j4483945857469_1_alg».proof.Proof.PosEmbed
import proofs.«164614_j4483945857469_1_alg».proof.Proof.RefTable
import proofs.«164614_j4483945857469_1_alg».proof.Proof.KernelTable
import Idealize.ShloMosaic.Adequacy
import Idealize.ShloMosaic.Init

noncomputable section

namespace Cert.Proof

open Idealize.ShloMosaic Idealize.SL.Sem

/-- The kernel program at the word level runs and leaves its arguments as they were. -/
theorem frame_kernel : Cert.frame_Kernel :=
  fun m ρ _ => Cert.Kernel.Gen.frame m ρ

/-- The same text read at the extended reals runs and leaves its arguments as they were. -/
theorem frame_kernelIdeal : Cert.frame_KernelIdeal :=
  fun m ρ _ => Cert.KernelIdeal.Gen.frame m ρ

/-- The reference runs and leaves its arguments as they were: its run, the result forgotten. -/
theorem frame_reference : Cert.frame_ReferenceIdeal :=
  fun m ρ _ => (θ_run Cert.ReferenceIdeal.defs _ _).mono (fun _ h c => (h c).2)
    (Cert.ReferenceIdeal.Value.run (F := Ideal) m ρ)

/-- From memories that agree on the arguments both programs end with the table `W[d, s] + b[d]` of the kernel
    side's weight matrix and bias in their result arrays: the kernel by its blocks, the reference by its seven
    operations read back, the agreement of the arguments carrying the reference's table over. -/
theorem algebraic : Cert.algebraic_KernelIdeal_ReferenceIdeal := by
  intro m ρ m' ρ' _ hagree
  refine ⟨_, Cert.KernelIdeal.Table.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.Table.result_eq, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
